-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩

abbrev nBuf : Space → Nat
  | .hbm => 10
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S10000x128, .f32⟩
  | .hbm, ⟨8, _⟩ => ⟨S1x128, .f32⟩
  | .hbm, ⟨9, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | .local _ .vmem, ⟨7, _⟩ => ⟨S400x10000, .f32⟩
  | .local _ .vmem, ⟨8, _⟩ => ⟨S400x10000, .f32⟩
  | .local _ .vmem, ⟨9, _⟩ => ⟨S10000x128, .f32⟩
  | .local _ .vmem, ⟨10, _⟩ => ⟨S128x128, .f32⟩
  | .local _ .vmem, ⟨11, _⟩ => ⟨S1x128, .f32⟩
  | .local _ .vmem, ⟨12, _⟩ => ⟨S400x128, .f32⟩
  | .local _ .vmem, ⟨13, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  shapeCasts_S10000x128_S10000x128 : S10000x128.ShapeCasts S10000x128
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000x128, .f32⟩
  | .hbm, ⟨13, _⟩ => ⟨S10000x128, .f32⟩
  | .hbm, ⟨14, _⟩ => ⟨S10000x128, .f32⟩
  | .hbm, ⟨15, _⟩ => ⟨S10000x128, .f32⟩
  | .hbm, ⟨16, _⟩ => ⟨S1x128, .f32⟩
  | .hbm, ⟨17, _⟩ => ⟨S10000x128, .f32⟩
  | .hbm, ⟨18, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Block.lean ====
/-
  What one grid point of each pass leaves in its output block, read at an index.

  A block of 400 rows of the adjacency is multiplied by the whole feature matrix, the 400 x 128
  product by the dense weight, the bias row is added to every row; the first pass then clamps
  below at zero. Both matrix products accumulate into zero, so at the ideal instance each is the
  plain sum over its contracted coordinate.
-/
import proofs.«129140_g9603546874155_cont_9to1c4b_372_3_alg».proof.Proof.Gen.KernelIdeal.Skeleton
import proofs.«129140_g9603546874155_cont_9to1c4b_372_3_alg».proof.Proof.LibDot2
import Idealize.ShloMosaic.Lib.ValueLayout
import Idealize.ShloMosaic.Lib.Pipeline.Value

noncomputable section

open scoped BigOperators

namespace Cert.KernelIdeal.Blk

open Cert.KernelIdeal Cert.KernelIdeal.Gen Idealize.ShloMosaic Idealize.ShloMosaic.ValueIdx

/-- 400 rows of the adjacency against the feature matrix, accumulated into zero: at `(p, q)` the
    sum over every node `l` of `a[p, l] * v[l, q]`. -/
theorem gather_apply (l : FVec Ideal S400x10000 .f32) (r : FVec Ideal S10000x128 .f32) (p : Fin 400) (q : Fin 128) :
    matmul dot_S400x10000_S10000x128_S400x128_1_0_0_1_n_n none l r (constant S400x128 .f32 0x00000000#32) (ix2 p q)
      = ∑ k : Fin 10000, l (ix2 p k) * r (ix2 k q) :=
  Dot2.matmul_zero_mm_apply Gen.dot_S400x10000_S10000x128_S400x128_1_0_0_1_n_n_wf none l r p q

/-- The gathered 400 x 128 block against the dense weight, accumulated into zero: at `(p, q)` the
    sum over the 128 input features `k` of `g[p, k] * w[k, q]`. -/
theorem dense_apply (l : FVec Ideal S400x128 .f32) (r : FVec Ideal S128x128 .f32) (p : Fin 400) (q : Fin 128) :
    matmul dot_S400x128_S128x128_S400x128_1_0_0_1_n_n none l r (constant S400x128 .f32 0x00000000#32) (ix2 p q)
      = ∑ k : Fin 128, l (ix2 p k) * r (ix2 k q) :=
  Dot2.matmul_zero_mm_apply Gen.dot_S400x128_S128x128_S400x128_1_0_0_1_n_n_wf none l r p q

/-- The first pass's block at `(p, q)`: gather, dense layer, bias, clamped below at zero. -/
theorem pay0_apply (x0 : FVec Ideal S400x10000 .f32) (x1 : FVec Ideal S10000x128 .f32) (x2 : FVec Ideal S128x128 .f32)
    (x3 : FVec Ideal S1x128 .f32) (p : Fin 400) (q : Fin 128) :
    k0_pay1 (F := Ideal) x0 x1 x2 x3 (ix2 p q)
      = max ((∑ k : Fin 128, (∑ l : Fin 10000, x0 (ix2 p l) * x1 (ix2 l k)) * x2 (ix2 k q)) + x3 (ix2 (0 : Fin 1) q))
          (Ideal.ofBits .f32 0x00000000#32) := by
  unfold k0_pay1
  rw [maximumf_apply, addf_apply, dense_apply, broadcastTo_1b_ab_apply, shapeCast_self, broadcast_apply]
  simp only [gather_apply]
  rfl

/-- The second pass's block at `(p, q)`: gather, dense layer, bias. -/
theorem pay1_apply (x0 : FVec Ideal S400x10000 .f32) (x1 : FVec Ideal S10000x128 .f32) (x2 : FVec Ideal S128x128 .f32)
    (x3 : FVec Ideal S1x128 .f32) (p : Fin 400) (q : Fin 128) :
    k1_pay1 (F := Ideal) x0 x1 x2 x3 (ix2 p q)
      = (∑ k : Fin 128, (∑ l : Fin 10000, x0 (ix2 p l) * x1 (ix2 l k)) * x2 (ix2 k q)) + x3 (ix2 (0 : Fin 1) q) := by
  unfold k1_pay1
  rw [addf_apply, dense_apply, broadcastTo_1b_ab_apply, shapeCast_self, shapeCast_self]
  simp only [gather_apply]

end Cert.KernelIdeal.Blk

end
-- ==== Proof.GcnSpec.lean ====
/-
  A two-layer graph convolution over a dense adjacency, as plain sums over the extended reals.

  One pass takes the adjacency `a` (10000 x 10000), node features `v` (10000 x 128), a dense
  weight `w` (128 x 128) and a bias `b` (128) to
      pass a v w b [p, q] = (∑ k, (∑ l, a[p, l] * v[l, k]) * w[k, q]) + b[q]:
  row `p` of the adjacency gathers the features of every node, the gathered row goes through the
  dense layer, the bias is added. The hidden features are the first pass clamped below at zero;
  the result is the second pass over the hidden features, not clamped.
-/
import Idealize.ShloMosaic.PureOps.Ideal
import Idealize.ShloMosaic.Lib.ValueIdx

noncomputable section

open scoped BigOperators

namespace Cert.Gcn

open Idealize.ShloMosaic Idealize.ShloMosaic.ValueIdx

/-- Adjacency, node features, dense weight, bias: the four shapes of the layer. -/
abbrev SAdj : Shape := ⟨2, ![10000, 10000]⟩
abbrev SFeat : Shape := ⟨2, ![10000, 128]⟩
abbrev SWgt : Shape := ⟨2, ![128, 128]⟩
abbrev SBias : Shape := ⟨1, ![128]⟩

/-- One pass at row `p`, column `q`: gather over the adjacency's row, the dense layer, the bias. -/
def passAt (a : SAdj.Idx → EReal) (v : SFeat.Idx → EReal) (w : SWgt.Idx → EReal) (b : SBias.Idx → EReal)
    (p : Fin 10000) (q : Fin 128) : EReal :=
  (∑ k : Fin 128, (∑ l : Fin 10000, a (ix2 p l) * v (ix2 l k)) * w (ix2 k q)) + b (ix1 q)

/-- The hidden features: the first pass, clamped below at zero. -/
def hidden (a : SAdj.Idx → EReal) (x : SFeat.Idx → EReal) (w1 : SWgt.Idx → EReal) (b1 : SBias.Idx → EReal) :
    SFeat.Idx → EReal :=
  fun i => max (passAt a x w1 b1 (i 0) (i 1)) (Ideal.ofBits .f32 0x00000000#32)

/-- The layer's result: the second pass, over the hidden features. -/
def result (a : SAdj.Idx → EReal) (x : SFeat.Idx → EReal) (w1 : SWgt.Idx → EReal) (b1 : SBias.Idx → EReal)
    (w2 : SWgt.Idx → EReal) (b2 : SBias.Idx → EReal) : SFeat.Idx → EReal :=
  fun i => passAt a (hidden a x w1 b1) w2 b2 (i 0) (i 1)

theorem hidden_apply (a : SAdj.Idx → EReal) (x : SFeat.Idx → EReal) (w1 : SWgt.Idx → EReal) (b1 : SBias.Idx → EReal)
    (p : Fin 10000) (q : Fin 128) :
    hidden a x w1 b1 (ix2 p q) = max (passAt a x w1 b1 p q) (Ideal.ofBits .f32 0x00000000#32) := rfl

theorem result_apply (a : SAdj.Idx → EReal) (x : SFeat.Idx → EReal) (w1 : SWgt.Idx → EReal) (b1 : SBias.Idx → EReal)
    (w2 : SWgt.Idx → EReal) (b2 : SBias.Idx → EReal) (p : Fin 10000) (q : Fin 128) :
    result a x w1 b1 w2 b2 (ix2 p q) = passAt a (hidden a x w1 b1) w2 b2 p q := rfl

end Cert.Gcn

end
-- ==== Proof.KernelValue.lean ====
/-
  The kernel's result array after the run: the two-layer graph convolution of the launch arguments.

  Each pass is a grid of 25 points; point `t` reads rows `400 t … 400 t + 399` of the adjacency, the whole
  feature matrix, the whole dense weight and the bias as a 1 x 128 row, and writes back rows
  `400 t … 400 t + 399` of its output. So what a point writes back is the block of ONE whole-array function of
  the arrays the region finds, the 25 blocks tile the 10000 rows, and the output array ends holding that function:
  the hidden features after the first pass, the layer's result after the second, whose feature operand is the
  array the first pass wrote. Between the passes the only host operations recast a bias from 128 entries to a
  1 x 128 row, which reads the same entry at every column.
-/
import proofs.«129140_g9603546874155_cont_9to1c4b_372_3_alg».proof.Proof.Gen.KernelIdeal.Frame
import proofs.«129140_g9603546874155_cont_9to1c4b_372_3_alg».proof.Proof.Block
import proofs.«129140_g9603546874155_cont_9to1c4b_372_3_alg».proof.Proof.KernelRun
import proofs.«129140_g9603546874155_cont_9to1c4b_372_3_alg».proof.Proof.GcnSpec
import Idealize.ShloMosaic.Lib.Pipeline.Value
import Idealize.ShloMosaic.Lib.ValueLayout

set_option maxRecDepth 16384

noncomputable section

open scoped BigOperators

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen

/-- The zero offsets of a whole-block load or store, as a constant function. -/
theorem hz : (![0, 0] : Fin 2 → Nat) = fun _ => 0 := funext fun a => by fin_cases a <;> rfl

/-- A block of a pass, from blocks that are rows `r … r + 399` of the adjacency, the whole features, the whole
    weight and the bias as a row: the pass's rows `r … r + 399`. -/
theorem block0_eq (a : Gcn.SAdj.Idx → EReal) (x : Gcn.SFeat.Idx → EReal) (w : Gcn.SWgt.Idx → EReal) (b : Gcn.SBias.Idx → EReal)
    (x0 : FVec Ideal S400x10000 .f32) (x1 : FVec Ideal S10000x128 .f32) (x2 : FVec Ideal S128x128 .f32) (x3 : FVec Ideal S1x128 .f32)
    (r : Nat) (hr : r + 400 ≤ 10000)
    (h0 : ∀ (p : Fin 400) (l : Fin 10000), x0 (ix2 p l) = a (ix2 (⟨r + p.val, by have := p.isLt; omega⟩ : Fin 10000) l))
    (h1 : x1 = x) (h2 : x2 = w) (h3 : ∀ q : Fin 128, x3 (ix2 (0 : Fin 1) q) = b (ix1 q)) (p : Fin 400) (q : Fin 128) :
    k0_pay1 (F := Ideal) x0 x1 x2 x3 (ix2 p q) = Gcn.hidden a x w b (ix2 (⟨r + p.val, by have := p.isLt; omega⟩ : Fin 10000) q) := by
  subst h1 h2
  rw [Blk.pay0_apply, Gcn.hidden_apply]
  unfold Gcn.passAt
  simp only [h0, h3]

/-- The same for the second pass, which does not clamp. -/
theorem block1_eq (a : Gcn.SAdj.Idx → EReal) (x : Gcn.SFeat.Idx → EReal) (w : Gcn.SWgt.Idx → EReal) (b : Gcn.SBias.Idx → EReal)
    (x0 : FVec Ideal S400x10000 .f32) (x1 : FVec Ideal S10000x128 .f32) (x2 : FVec Ideal S128x128 .f32) (x3 : FVec Ideal S1x128 .f32)
    (r : Nat) (hr : r + 400 ≤ 10000)
    (h0 : ∀ (p : Fin 400) (l : Fin 10000), x0 (ix2 p l) = a (ix2 (⟨r + p.val, by have := p.isLt; omega⟩ : Fin 10000) l))
    (h1 : x1 = x) (h2 : x2 = w) (h3 : ∀ q : Fin 128, x3 (ix2 (0 : Fin 1) q) = b (ix1 q)) (p : Fin 400) (q : Fin 128) :
    k1_pay1 (F := Ideal) x0 x1 x2 x3 (ix2 p q) = Gcn.passAt a x w b (⟨r + p.val, by have := p.isLt; omega⟩ : Fin 10000) q := by
  subst h1 h2
  rw [Blk.pay1_apply]
  unfold Gcn.passAt
  simp only [h0, h3]

section Region0
variable (V : (c : Dev nD) → (b : Ref sig .tc) → Buf (Elt Ideal) ((c : Thread nD τ).loc b))

/-- The block indices of the first pass's windows at point `t`: the adjacency and the output move down one block
    of rows per point, the features, the weight and the bias row stay at block zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` of the first pass writes back is rows `400 t … 400 t + 399` of the hidden features of the arrays
    the region finds. -/
theorem flushed0 (c : Dev nD) (a : Gcn.SAdj.Idx → EReal) (x : Gcn.SFeat.Idx → EReal) (w : Gcn.SWgt.Idx → EReal) (b : Gcn.SBias.Idx → EReal)
    (hA : V c main_arg1 = a) (hX : V c main_arg0 = x) (hW : V c main_arg2 = w)
    (hB : ∀ q : Fin 128, (V c main_v0 : S1x128.Idx → EReal) (ix2 (0 : Fin 1) q) = b (ix1 q)) (t : Fin cfg0.N) :
    (dat0 V c).flushed 4 t = ((cfg0.win 4).blk t).view.read (Elt Ideal) (Gcn.hidden a x w b) := by
  show (cfg0.win 4).cut (grid0.coords t) ((dat0 V c).after 4 t) = _
  rw [after0_4]
  unfold out0_4
  rw [View.canon_unit_zero hz]
  simp only [View.ld_unit_zero (S := S400x10000) hz, View.ld_unit_zero (S := S10000x128) hz, View.ld_unit_zero (S := S128x128) hz, View.ld_unit_zero (S := S1x128) hz]
  funext j
  obtain ⟨e00, e01, e10, e11, e20, e21, e30, e31, e40, e41⟩ := idx0 t
  have hN : cfg0.N = 25 := N_0
  have ht : t.val < 25 := hN ▸ t.isLt
  have hj0 : (j 0).val < 400 := (j 0).isLt
  have hj1 : (j 1).val < 128 := (j 1).isLt
  have hx : (win0 4).xinj (grid0.coords t) j = ix2 (⟨(j 0).val, hj0⟩ : Fin 400) (⟨(j 1).val, hj1⟩ : Fin 128) := by
    funext d; apply Fin.ext
    match d with
    | ⟨0, _⟩ => rfl
    | ⟨1, _⟩ => rfl
  have hemb : ((View.whole main_v1).slice ((win0 4).rect t)).emb j
      = ix2 (⟨400 * t.val + (j 0).val, by omega⟩ : Fin 10000) (⟨(j 1).val, hj1⟩ : Fin 128) := by
    funext d; apply Fin.ext
    match d with
    | ⟨0, _⟩ => show win0_4.index t (0 : Fin 2) * 400 + 1 * (j 0).val = 400 * t.val + (j 0).val; omega
    | ⟨1, _⟩ => show win0_4.index t (1 : Fin 2) * 128 + 1 * (j 1).val = (j 1).val; omega
  show k0_pay1 (F := Ideal) (iblk0 V c 0 t) (iblk0 V c 1 t) (iblk0 V c 2 t) (iblk0 V c 3 t) ((win0 4).xinj (grid0.coords t) j)
    = Gcn.hidden a x w b (((View.whole main_v1).slice ((win0 4).rect t)).emb j)
  rw [hx, hemb]
  refine block0_eq a x w b (iblk0 V c 0 t) (iblk0 V c 1 t) (iblk0 V c 2 t) (iblk0 V c 3 t) (400 * t.val) (by omega) ?_ ?_ ?_ ?_
    ⟨(j 0).val, hj0⟩ ⟨(j 1).val, hj1⟩
  · intro p l
    subst hA
    unfold iblk0
    rw [View.read_apply]
    show V c main_arg1 _ = V c main_arg1 _
    refine congrArg _ ?_
    funext d; apply Fin.ext
    match d with
    | ⟨0, _⟩ => show win0_0.index t (0 : Fin 2) * 400 + 1 * p.val = 400 * t.val + p.val; omega
    | ⟨1, _⟩ => show win0_0.index t (1 : Fin 2) * 10000 + 1 * l.val = l.val; omega
  · subst hX
    unfold iblk0
    funext y
    rw [View.read_apply]
    show V c main_arg0 _ = V c main_arg0 y
    refine congrArg _ ?_
    funext d; apply Fin.ext
    match d with
    | ⟨0, _⟩ => show win0_1.index t (0 : Fin 2) * 10000 + 1 * (y 0).val = (y 0).val; omega
    | ⟨1, _⟩ => show win0_1.index t (1 : Fin 2) * 128 + 1 * (y 1).val = (y 1).val; omega
  · subst hW
    unfold iblk0
    funext y
    rw [View.read_apply]
    show V c main_arg2 _ = V c main_arg2 y
    refine congrArg _ ?_
    funext d; apply Fin.ext
    match d with
    | ⟨0, _⟩ => show win0_2.index t (0 : Fin 2) * 128 + 1 * (y 0).val = (y 0).val; omega
    | ⟨1, _⟩ => show win0_2.index t (1 : Fin 2) * 128 + 1 * (y 1).val = (y 1).val; omega
  · intro q
    rw [← hB q]
    unfold iblk0
    rw [View.read_apply]
    show V c main_v0 _ = V c main_v0 _
    refine congrArg _ ?_
    funext d; apply Fin.ext
    match d with
    | ⟨0, _⟩ => show win0_3.index t (0 : Fin 2) * 1 + 1 * 0 = 0; omega
    | ⟨1, _⟩ => show win0_3.index t (1 : Fin 2) * 128 + 1 * q.val = q.val; omega

/-- An index of the feature array is in point `t`'s output block iff each coordinate is in the block's range. -/
theorem mem_blk0 (t : Fin cfg0.N) (i : S10000x128.Idx) :
    i ∈ ((cfg0.win 4).blk t).view.set ↔ ∀ d : Fin 2, win0_4.index t d * S400x128.size d ≤ (i d).val ∧ (i d).val < win0_4.index t d * S400x128.size d + S400x128.size d := by
  show i ∈ ((View.whole main_v1).slice (win0_4.rect t)).set ↔ _
  rw [View.set_slice_whole, Rect.mem_set_unit]
  exact Iff.rfl

/-- Row `r` of the feature array is written back by point `r / 400`. -/
theorem cover0 (i : S10000x128.Idx) :
    ∃ t : Fin cfg0.N, (cfg0.win 4).flush t = true ∧ i ∈ ((cfg0.win 4).blk t).view.set := by
  have hN : cfg0.N = 25 := N_0
  have hi0 : (i 0).val < 10000 := (i 0).isLt
  have hi1 : (i 1).val < 128 := (i 1).isLt
  refine ⟨⟨(i 0).val / 400, by rw [hN]; omega⟩, flush0_4 _, ?_⟩
  rw [mem_blk0]
  obtain ⟨e00, e01, e10, e11, e20, e21, e30, e31, e40, e41⟩ := idx0 ⟨(i 0).val / 400, by rw [hN]; omega⟩
  intro d
  match d with
  | ⟨0, _⟩ =>
    show win0_4.index _ (0 : Fin 2) * 400 ≤ (i 0).val ∧ (i 0).val < win0_4.index _ (0 : Fin 2) * 400 + 400
    rw [e40]; show (i 0).val / 400 * 400 ≤ (i 0).val ∧ (i 0).val < (i 0).val / 400 * 400 + 400; omega
  | ⟨1, _⟩ =>
    show win0_4.index _ (1 : Fin 2) * 128 ≤ (i 1).val ∧ (i 1).val < win0_4.index _ (1 : Fin 2) * 128 + 128
    rw [e41]; omega

end Region0

section Region1
variable (V : (c : Dev nD) → (b : Ref sig .tc) → Buf (Elt Ideal) ((c : Thread nD τ).loc b))

/-- The block indices of the second pass's windows at point `t`: as in the first pass. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` of the second pass writes back is rows `400 t … 400 t + 399` of the pass over the features
    the region finds in `main_v1`. -/
theorem flushed1 (c : Dev nD) (a : Gcn.SAdj.Idx → EReal) (h : Gcn.SFeat.Idx → EReal) (w : Gcn.SWgt.Idx → EReal) (b : Gcn.SBias.Idx → EReal)
    (hA : V c main_arg1 = a) (hH : V c main_v1 = h) (hW : V c main_arg4 = w)
    (hB : ∀ q : Fin 128, (V c main_v2 : S1x128.Idx → EReal) (ix2 (0 : Fin 1) q) = b (ix1 q)) (t : Fin cfg1.N) :
    (dat1 V c).flushed 4 t = ((cfg1.win 4).blk t).view.read (Elt Ideal) (fun i : Gcn.SFeat.Idx => Gcn.passAt a h w b (i 0) (i 1)) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x128) hz, View.ld_unit_zero (S := S128x128) hz, View.ld_unit_zero (S := S1x128) hz]
  funext j
  obtain ⟨e00, e01, e10, e11, e20, e21, e30, e31, e40, e41⟩ := idx1 t
  have hN : cfg1.N = 25 := N_1
  have ht : t.val < 25 := hN ▸ t.isLt
  have hj0 : (j 0).val < 400 := (j 0).isLt
  have hj1 : (j 1).val < 128 := (j 1).isLt
  have hx : (win1 4).xinj (grid1.coords t) j = ix2 (⟨(j 0).val, hj0⟩ : Fin 400) (⟨(j 1).val, hj1⟩ : Fin 128) := by
    funext d; apply Fin.ext
    match d with
    | ⟨0, _⟩ => rfl
    | ⟨1, _⟩ => rfl
  have hemb : ((View.whole main_v3).slice ((win1 4).rect t)).emb j
      = ix2 (⟨400 * t.val + (j 0).val, by omega⟩ : Fin 10000) (⟨(j 1).val, hj1⟩ : Fin 128) := by
    funext d; apply Fin.ext
    match d with
    | ⟨0, _⟩ => show win1_4.index t (0 : Fin 2) * 400 + 1 * (j 0).val = 400 * t.val + (j 0).val; omega
    | ⟨1, _⟩ => show win1_4.index t (1 : Fin 2) * 128 + 1 * (j 1).val = (j 1).val; omega
  show k1_pay1 (F := Ideal) (iblk1 V c 0 t) (iblk1 V c 1 t) (iblk1 V c 2 t) (iblk1 V c 3 t) ((win1 4).xinj (grid1.coords t) j)
    = (fun i : Gcn.SFeat.Idx => Gcn.passAt a h w b (i 0) (i 1)) (((View.whole main_v3).slice ((win1 4).rect t)).emb j)
  rw [hx, hemb]
  refine block1_eq a h w b (iblk1 V c 0 t) (iblk1 V c 1 t) (iblk1 V c 2 t) (iblk1 V c 3 t) (400 * t.val) (by omega) ?_ ?_ ?_ ?_
    ⟨(j 0).val, hj0⟩ ⟨(j 1).val, hj1⟩
  · intro p l
    subst hA
    unfold iblk1
    rw [View.read_apply]
    show V c main_arg1 _ = V c main_arg1 _
    refine congrArg _ ?_
    funext d; apply Fin.ext
    match d with
    | ⟨0, _⟩ => show win1_0.index t (0 : Fin 2) * 400 + 1 * p.val = 400 * t.val + p.val; omega
    | ⟨1, _⟩ => show win1_0.index t (1 : Fin 2) * 10000 + 1 * l.val = l.val; omega
  · subst hH
    unfold iblk1
    funext y
    rw [View.read_apply]
    show V c main_v1 _ = V c main_v1 y
    refine congrArg _ ?_
    funext d; apply Fin.ext
    match d with
    | ⟨0, _⟩ => show win1_1.index t (0 : Fin 2) * 10000 + 1 * (y 0).val = (y 0).val; omega
    | ⟨1, _⟩ => show win1_1.index t (1 : Fin 2) * 128 + 1 * (y 1).val = (y 1).val; omega
  · subst hW
    unfold iblk1
    funext y
    rw [View.read_apply]
    show V c main_arg4 _ = V c main_arg4 y
    refine congrArg _ ?_
    funext d; apply Fin.ext
    match d with
    | ⟨0, _⟩ => show win1_2.index t (0 : Fin 2) * 128 + 1 * (y 0).val = (y 0).val; omega
    | ⟨1, _⟩ => show win1_2.index t (1 : Fin 2) * 128 + 1 * (y 1).val = (y 1).val; omega
  · intro q
    rw [← hB q]
    unfold iblk1
    rw [View.read_apply]
    show V c main_v2 _ = V c main_v2 _
    refine congrArg _ ?_
    funext d; apply Fin.ext
    match d with
    | ⟨0, _⟩ => show win1_3.index t (0 : Fin 2) * 1 + 1 * 0 = 0; omega
    | ⟨1, _⟩ => show win1_3.index t (1 : Fin 2) * 128 + 1 * q.val = q.val; omega

/-- An index of the result array is in point `t`'s output block iff each coordinate is in the block's range. -/
theorem mem_blk1 (t : Fin cfg1.N) (i : S10000x128.Idx) :
    i ∈ ((cfg1.win 4).blk t).view.set ↔ ∀ d : Fin 2, win1_4.index t d * S400x128.size d ≤ (i d).val ∧ (i d).val < win1_4.index t d * S400x128.size d + S400x128.size d := by
  show i ∈ ((View.whole main_v3).slice (win1_4.rect t)).set ↔ _
  rw [View.set_slice_whole, Rect.mem_set_unit]
  exact Iff.rfl

/-- Row `r` of the result array is written back by point `r / 400`. -/
theorem cover1 (i : S10000x128.Idx) :
    ∃ t : Fin cfg1.N, (cfg1.win 4).flush t = true ∧ i ∈ ((cfg1.win 4).blk t).view.set := by
  have hN : cfg1.N = 25 := N_1
  have hi0 : (i 0).val < 10000 := (i 0).isLt
  have hi1 : (i 1).val < 128 := (i 1).isLt
  refine ⟨⟨(i 0).val / 400, by rw [hN]; omega⟩, flush1_4 _, ?_⟩
  rw [mem_blk1]
  obtain ⟨e00, e01, e10, e11, e20, e21, e30, e31, e40, e41⟩ := idx1 ⟨(i 0).val / 400, by rw [hN]; omega⟩
  intro d
  match d with
  | ⟨0, _⟩ =>
    show win1_4.index _ (0 : Fin 2) * 400 ≤ (i 0).val ∧ (i 0).val < win1_4.index _ (0 : Fin 2) * 400 + 400
    rw [e40]; show (i 0).val / 400 * 400 ≤ (i 0).val ∧ (i 0).val < (i 0).val / 400 * 400 + 400; omega
  | ⟨1, _⟩ =>
    show win1_4.index _ (1 : Fin 2) * 128 ≤ (i 1).val ∧ (i 1).val < win1_4.index _ (1 : Fin 2) * 128 + 128
    rw [e41]; omega

end Region1

section Run
variable (m : (ℓ : Loc nD τ sig) → Buf (Elt Ideal) ℓ) (ρ : Dev nD → PrngReg)

/-- The first host stretch writes only the bias row `main_v0`: every other buffer enters the first region as launched. -/
theorem V1_of_ne (c : Dev nD) (b : Ref sig .tc) (hb : b ≠ main_v0) : V1 m ρ c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

/-- The bias row the first region reads is the first bias, at every column. -/
theorem V1_bias (c : Dev nD) (q : Fin 128) :
    (V1 m ρ c main_v0 : S1x128.Idx → EReal) (ix2 (0 : Fin 1) q) = (m ((c : Thread nD τ).loc main_arg3) : S128.Idx → EReal) (ix1 q) := by
  have e : (V1 m ρ c main_v0 : S1x128.Idx → EReal)
      = shapeCast S1x128 (m ((c : Thread nD τ).loc main_arg3) : S128.Idx → EReal) shapeCasts_S128_S1x128 := by
    show StableHlo.after hostOps0 (W0 m ρ c) (Proc.devRef .tc main_v0) = _
    after_results
    rfl
  rw [e]
  exact shapeCast_a_1a_apply _ _ 0 q

/-- After the first region the hidden array holds the hidden features of the launch arguments. -/
theorem hidden_arr (c : Dev nD) :
    (dat0 (V1 m ρ) c).arrAt 4 cfg0.N
      = Gcn.hidden (m ((c : Thread nD τ).loc main_arg1)) (m ((c : Thread nD τ).loc main_arg0)) (m ((c : Thread nD τ).loc main_arg2)) (m ((c : Thread nD τ).loc main_arg3)) :=
  (dat0 (V1 m ρ) c).arrAt_eq_of_cover 4 _
    (fun t _ => flushed0 (V1 m ρ) c _ _ _ _ (V1_of_ne m ρ c main_arg1 (by decide)) (V1_of_ne m ρ c main_arg0 (by decide))
      (V1_of_ne m ρ c main_arg2 (by decide)) (V1_bias m ρ c) t)
    cover0

/-- The second host stretch writes only the bias row `main_v2`: every other buffer enters the second region as the
    first region left it. -/
theorem V3_of_ne (c : Dev nD) (b : Ref sig .tc) (hb : b ≠ main_v2) : V3 m ρ c b = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-- The second region finds the adjacency as launched: the first region only read it. -/
theorem V3_adj (c : Dev nD) : V3 m ρ c main_arg1 = m ((c : Thread nD τ).loc main_arg1) :=
  (V3_of_ne m ρ c main_arg1 (by decide)).trans
    ((W2_arr m ρ c 0).trans (((dat0 (V1 m ρ) c).arrAt_in 0 rfl _).trans ((A_eq0 (V1 m ρ) c 0).trans
      (V1_of_ne m ρ c main_arg1 (by decide)))))

/-- The second region finds the hidden features in `main_v1`. -/
theorem V3_hidden (c : Dev nD) :
    V3 m ρ c main_v1
      = Gcn.hidden (m ((c : Thread nD τ).loc main_arg1)) (m ((c : Thread nD τ).loc main_arg0)) (m ((c : Thread nD τ).loc main_arg2)) (m ((c : Thread nD τ).loc main_arg3)) :=
  (V3_of_ne m ρ c main_v1 (by decide)).trans ((W2_arr m ρ c 4).trans (hidden_arr m ρ c))

/-- The second region finds the second weight as launched: no region or host operation before it touches it. -/
theorem V3_wgt (c : Dev nD) : V3 m ρ c main_arg4 = m ((c : Thread nD τ).loc main_arg4) :=
  (V3_of_ne m ρ c main_arg4 (by decide)).trans
    ((W2_of_ne m ρ c main_arg4 (by decide)).trans (V1_of_ne m ρ c main_arg4 (by decide)))

/-- The bias row the second region reads is the second bias, at every column. -/
theorem V3_bias (c : Dev nD) (q : Fin 128) :
    (V3 m ρ c main_v2 : S1x128.Idx → EReal) (ix2 (0 : Fin 1) q) = (m ((c : Thread nD τ).loc main_arg5) : S128.Idx → EReal) (ix1 q) := by
  have e : (V3 m ρ c main_v2 : S1x128.Idx → EReal)
      = shapeCast S1x128 (W2 m ρ c (Proc.devRef .tc main_arg5) : S128.Idx → EReal) shapeCasts_S128_S1x128 := by
    show StableHlo.after hostOps1 (W2 m ρ c) (Proc.devRef .tc main_v2) = _
    after_results
    rfl
  rw [e, (W2_of_ne m ρ c main_arg5 (by decide)).trans (V1_of_ne m ρ c main_arg5 (by decide))]
  exact shapeCast_a_1a_apply _ _ 0 q

/-- At the last segment boundary the result array holds the layer's result of the launch arguments. -/
theorem result_arr (c : Dev nD) :
    W4 m ρ c (Proc.devRef .tc main_v3)
      = Gcn.result (m ((c : Thread nD τ).loc main_arg1)) (m ((c : Thread nD τ).loc main_arg0)) (m ((c : Thread nD τ).loc main_arg2))
          (m ((c : Thread nD τ).loc main_arg3)) (m ((c : Thread nD τ).loc main_arg4)) (m ((c : Thread nD τ).loc main_arg5)) :=
  (W4_arr m ρ c 4).trans ((dat1 (V3 m ρ) c).arrAt_eq_of_cover 4 _
    (fun t _ => flushed1 (V3 m ρ) c _ _ _ _ (V3_adj m ρ c) (V3_hidden m ρ c) (V3_wgt m ρ c) (V3_bias m ρ c) t)
    cover1)

/-- The run, read: every weakly fair execution of the kernel's program terminates, nothing faulting, with the result
    array at the layer's result of the launch arguments and the arguments as launched. -/
theorem run : θ_run defs (onTc (τ := τ) (main (F := Ideal))) ⟨m, fun _ => 0, ρ⟩ (fun r => ∀ c : Dev nD,
      r.2.mem ((c.tc : Thread nD τ).loc main_v3)
        = Gcn.result (m ((c : Thread nD τ).loc main_arg1)) (m ((c : Thread nD τ).loc main_arg0)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_arr m ρ c), (h c).2⟩) (GenP.run_named m ρ)

end Run

end Cert.KernelIdeal.KValue

end
-- ==== Proof.RefValue.lean ====
/-
  The reference, read at an index: its last stage is the two-layer graph convolution.

  The reference multiplies the whole adjacency by the features, the product by the dense weight,
  adds the bias broadcast over the rows, clamps below at zero, and repeats without the clamp. Read
  one operation at a time at `(p, q)`, each general dot product is the sum over its contracted
  coordinate, each broadcast reads the bias at the column, and the maximum against the broadcast
  zero is the clamp.
-/
import proofs.«129140_g9603546874155_cont_9to1c4b_372_3_alg».proof.Proof.Gen.ReferenceIdeal.Read
import proofs.«129140_g9603546874155_cont_9to1c4b_372_3_alg».proof.Proof.GcnSpec

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The operand indices of each product and broadcast, from the coordinates -/

theorem lidx0 (p : Fin 10000) (q : Fin 128) (k : Fin 10000) : lidx_main_v0 (ix2 p q) k = ix2 p k :=
  funext fun a => by match a with | ⟨0, _⟩ => rfl | ⟨1, _⟩ => rfl
theorem ridx0 (p : Fin 10000) (q : Fin 128) (k : Fin 10000) : ridx_main_v0 (ix2 p q) k = ix2 k q :=
  funext fun a => by match a with | ⟨0, _⟩ => rfl | ⟨1, _⟩ => rfl
theorem lidx1 (p : Fin 10000) (q : Fin 128) (k : Fin 128) : lidx_main_v1 (ix2 p q) k = ix2 p k :=
  funext fun a => by match a with | ⟨0, _⟩ => rfl | ⟨1, _⟩ => rfl
theorem ridx1 (p : Fin 10000) (q : Fin 128) (k : Fin 128) : ridx_main_v1 (ix2 p q) k = ix2 k q :=
  funext fun a => by match a with | ⟨0, _⟩ => rfl | ⟨1, _⟩ => rfl
theorem lidx6 (p : Fin 10000) (q : Fin 128) (k : Fin 10000) : lidx_main_v6 (ix2 p q) k = ix2 p k :=
  funext fun a => by match a with | ⟨0, _⟩ => rfl | ⟨1, _⟩ => rfl
theorem ridx6 (p : Fin 10000) (q : Fin 128) (k : Fin 10000) : ridx_main_v6 (ix2 p q) k = ix2 k q :=
  funext fun a => by match a with | ⟨0, _⟩ => rfl | ⟨1, _⟩ => rfl
theorem lidx7 (p : Fin 10000) (q : Fin 128) (k : Fin 128) : lidx_main_v7 (ix2 p q) k = ix2 p k :=
  funext fun a => by match a with | ⟨0, _⟩ => rfl | ⟨1, _⟩ => rfl
theorem ridx7 (p : Fin 10000) (q : Fin 128) (k : Fin 128) : ridx_main_v7 (ix2 p q) k = ix2 k q :=
  funext fun a => by match a with | ⟨0, _⟩ => rfl | ⟨1, _⟩ => rfl
theorem bidx3 (p : Fin 10000) (q : Fin 128) : idx_main_v2 (idx_main_v3 (ix2 p q)) = ix1 q :=
  funext fun a => by match a with | ⟨0, _⟩ => rfl
theorem bidx9 (p : Fin 10000) (q : Fin 128) : idx_main_v8 (idx_main_v9 (ix2 p q)) = ix1 q :=
  funext fun a => by match a with | ⟨0, _⟩ => rfl

/-! ## The stages -/

/-- The first pass before the clamp. -/
theorem pass1_apply (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) (p : Fin 10000) (q : Fin 128) :
    val_main_v4 (F := Ideal) x0 x1 x2 x3 (ix2 p q) = Gcn.passAt x1 x0 x2 x3 p q := by
  rw [val_main_v4_apply, val_main_v1_apply, val_main_v3_apply, val_main_v2_apply, bidx3]
  simp only [val_main_v0_apply, lidx0, ridx0, lidx1, ridx1]
  rfl

/-- The hidden features. -/
theorem hidden_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    val_main_v5 (F := Ideal) x0 x1 x2 x3 = Gcn.hidden x1 x0 x2 x3 := by
  funext i
  obtain ⟨p, q, rfl⟩ : ∃ (p : Fin 10000) (q : Fin 128), i = ix2 p q := ⟨i 0, i 1, eq_ix2 i⟩
  rw [val_main_v5_apply, pass1_apply, val_main_call0_v0_apply, val_main_call0_cst_apply]
  rfl

/-- The reference's last stage is the layer's result. -/
theorem result_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal)) :
    val_main_v10 (F := Ideal) x0 x1 x2 x3 x4 x5 = Gcn.result x1 x0 x2 x3 x4 x5 := by
  funext i
  obtain ⟨p, q, rfl⟩ : ∃ (p : Fin 10000) (q : Fin 128), i = ix2 p q := ⟨i 0, i 1, eq_ix2 i⟩
  rw [val_main_v10_apply, val_main_v7_apply, val_main_v9_apply, val_main_v8_apply, bidx9]
  simp only [val_main_v6_apply, hidden_eq, lidx6, ridx6, lidx7, ridx7]
  rfl

end Cert.ReferenceIdeal.RefValue

end
-- ==== Proof.lean ====
/-
  A two-layer graph convolution over a dense 10000 x 10000 adjacency, computed by two grids of 25 row blocks,
  against the same layer written with whole-array matrix products.

  Both programs compute, at row `p` and column `q`,
      hidden[p, q] = max ((∑ k, (∑ l, adj[p, l] * x[l, k]) * W1[k, q]) + b1[q]) 0,
      out[p, q]    =      (∑ k, (∑ l, adj[p, l] * hidden[l, k]) * W2[k, q]) + b2[q].
  The kernel's program does it 400 rows at a time, each matrix product accumulated into zero; the reference does it
  with general dot products over the whole arrays. Over the extended reals a product accumulated into zero and a
  general dot product are the same sum over the contracted coordinate, in the same grouping on both sides, so the
  two results agree index by index with no algebraic law beyond that reading and no use of the precondition.
  The frames of the two kernel programs are the generated ones; the reference's frame is its generated run with the
  result dropped; the idealization rewrote nothing.
-/
import proofs.«129140_g9603546874155_cont_9to1c4b_372_3_alg».proof.Defs
import proofs.«129140_g9603546874155_cont_9to1c4b_372_3_alg».proof.Proof.Gen.Kernel
import proofs.«129140_g9603546874155_cont_9to1c4b_372_3_alg».proof.Proof.Gen.Kernel.Skeleton
import proofs.«129140_g9603546874155_cont_9to1c4b_372_3_alg».proof.Proof.Gen.Kernel.Launch
import proofs.«129140_g9603546874155_cont_9to1c4b_372_3_alg».proof.Proof.Gen.Kernel.Points
import proofs.«129140_g9603546874155_cont_9to1c4b_372_3_alg».proof.Proof.Gen.Kernel.Frame
import proofs.«129140_g9603546874155_cont_9to1c4b_372_3_alg».proof.Proof.Gen.KernelIdeal
import proofs.«129140_g9603546874155_cont_9to1c4b_372_3_alg».proof.Proof.Gen.KernelIdeal.Skeleton
import proofs.«129140_g9603546874155_cont_9to1c4b_372_3_alg».proof.Proof.Gen.KernelIdeal.Launch
import proofs.«129140_g9603546874155_cont_9to1c4b_372_3_alg».proof.Proof.Gen.KernelIdeal.Points
import proofs.«129140_g9603546874155_cont_9to1c4b_372_3_alg».proof.Proof.Gen.KernelIdeal.Frame
import proofs.«129140_g9603546874155_cont_9to1c4b_372_3_alg».proof.Proof.Gen.ReferenceIdeal
import proofs.«129140_g9603546874155_cont_9to1c4b_372_3_alg».proof.Proof.Gen.Pre_finite_inputs
import proofs.«129140_g9603546874155_cont_9to1c4b_372_3_alg».proof.Proof.Gen.ReferenceIdeal.Run
import proofs.«129140_g9603546874155_cont_9to1c4b_372_3_alg».proof.Proof.Gen.ReferenceIdeal.Read
import proofs.«129140_g9603546874155_cont_9to1c4b_372_3_alg».proof.Proof.KernelValue
import proofs.«129140_g9603546874155_cont_9to1c4b_372_3_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The reference runs and keeps its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the six arguments both programs end with the result array at the layer's result of
    those arguments: the kernel's by its two passes read block by block, the reference's by its stages read at an
    index. -/
theorem algebraic : Cert.algebraic_KernelIdeal_ReferenceIdeal := by
  intro m ρ m' ρ' _ hagree
  refine ⟨fun c => Cert.Gcn.result
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  rw [Cert.ReferenceIdeal.Read.val_main_v10_eq, Cert.ReferenceIdeal.RefValue.result_eq, h0, h1, h2, h3, h4, h5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
